-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel

variable [Facts]

def fn {F : FTy → Type} [FloatOps F] (main_arg0 : FVec F S16x4096x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  main_v3
-- ==== Kernel.lean ====
abbrev S16x4096x1024 : Shape := ⟨3, ![16, 4096, 1024]⟩
abbrev S65536x1024 : Shape := ⟨2, ![65536, 1024]⟩
abbrev S512x1024 : Shape := ⟨2, ![512, 1024]⟩

abbrev nBuf : Space → Nat
  | .hbm => 4
  | .vmem => 4
  | .smem => 0
  | _ => 0

abbrev bufTy : (tb : Table) → Fin (tcTables nBuf tb) → BufTy
  | .hbm, ⟨0, _⟩ => ⟨S16x4096x1024, .f32⟩
  | .hbm, ⟨1, _⟩ => ⟨S65536x1024, .f32⟩
  | .hbm, ⟨2, _⟩ => ⟨S65536x1024, .f32⟩
  | .hbm, ⟨3, _⟩ => ⟨S16x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x4096x1024_S65536x1024 : S16x4096x1024.ShapeCasts S65536x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S65536x1024_S16x4096x1024 : S65536x1024.ShapeCasts S16x4096x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S65536x1024.size a
  hwx0_0 : ∀ i : grid0.Coords, EltTy.bits .f32 = 32 ∨ (Rect.block (s := S65536x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S65536x1024.size a
  hwx0_1 : ∀ i : grid0.Coords, EltTy.bits .f32 = 32 ∨ (Rect.block (s := S65536x1024) S512x1024.size (cc0_transform_1 i) (hinb0_1 i)).WholeWords (EltTy.packing .f32)

variable [Facts₀]

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S_ : Shape := ⟨0, ![]⟩

abbrev nBuf : Space → Nat
  | .hbm => 4
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S_, .f32⟩
  | .hbm, ⟨2, _⟩ => ⟨S16x4096x1024, .f32⟩
  | .hbm, ⟨3, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S_S16x4096x1024 : S_.BroadcastsInDim S16x4096x1024 (![] : Fin 0 → Fin S16x4096x1024.rank)

variable [Facts₀]

class Facts : Prop extends Facts₀ where

variable [Facts]
-- ==== Proof.ScaleRegion.lean ====
/-
  What the one pallas_call leaves in its output array.

  The flattened input has 65536 rows of 1024 entries; the grid has 128 points; point t stages rows
  512·t … 512·t + 511 (all 1024 columns) of the input, multiplies each staged entry by the scalar on the right,
  and writes the block back at the same rows of the output. Input and output windows have the same index map
  t ↦ (t, 0), so the block written at point t is the same rows of ONE whole-array function of the input
  (`rowsScaled`); the 128 blocks tile the 65536 rows, so the output array ends as that function everywhere.
-/
import proofs.«101614_j61933428412507_1_alg».proof.Proof.Gen.KernelIdeal.Frame
import Idealize.ShloMosaic.Lib.Pipeline.Value

set_option maxRecDepth 16384

noncomputable section

namespace Cert.KernelIdeal.ScaleRegion

open Idealize.ShloMosaic Idealize.ShloMosaic.TcCoe Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- The body's accesses all start at the block's origin. -/
theorem origin : (![0, 0] : Fin 2 → Nat) = fun _ => 0 := funext fun a => by fin_cases a <;> rfl

/-- Every entry of the flattened array times the scalar, the scalar on the right. -/
abbrev rowsScaled (a : S65536x1024.Idx → Elt F .f32) : S65536x1024.Idx → Elt F .f32 :=
  fun i => FloatOps.mulf (a i) (FloatOps.ofBits .f32 0xBDCCCCCD#32)

/-- The body's one stored value: each staged entry times the scalar (the body's cast to its own shape renames
    nothing). -/
theorem stored_eq (x0 : Vec F S512x1024 .f32) :
    k0_pay1 x0 = fun j => FloatOps.mulf (x0 j) (FloatOps.ofBits .f32 0xBDCCCCCD#32) := by
  unfold k0_pay1
  rw [shapeCast_self]
  rfl

/-- At every grid point the input window and the output window sit at the same block: the same block row, which is
    below 128, and block column 0. -/
theorem same_block : ∀ t : Fin cfg0.N, win0_0.index t (0 : Fin 2) = win0_1.index t (0 : Fin 2)
    ∧ win0_0.index t (1 : Fin 2) = win0_1.index t (1 : Fin 2)
    ∧ win0_1.index t (0 : Fin 2) ≤ 127
    ∧ win0_1.index t (1 : Fin 2) = 0 :=
  (by decide +kernel : ∀ t : Fin grid0.N, _)

/-- Every block row 0 … 127 is some point's. -/
theorem block_row_onto : ∀ q : Fin 128, ∃ t : Fin cfg0.N, win0_1.index t = ![q.val, 0] :=
  (by decide +kernel : ∀ q : Fin 128, ∃ t : Fin grid0.N, win0_1.index t = ![q.val, 0])

/-- What point t writes back is rows 512·t … 512·t + 511 of `rowsScaled` of the flattened input. -/
theorem flushed_eq (c : Dev nD) (t : Fin cfg0.N) :
    (dats m 0 c).flushed 1 t = ((cfg0.win 1).blk t).view.read (Elt F) (rowsScaled (V m c main_v0)) := by
  show (cfg0.win 1).cut (grid0.coords t) ((dats m 0 c).after 1 t) = _
  rw [after0_1]
  unfold out0_1
  rw [View.canon_unit_zero origin]
  simp only [View.ld_unit_zero (S := S512x1024) origin]
  rw [stored_eq]
  obtain ⟨e0, e1, e2, e3⟩ := same_block t
  funext j
  show FloatOps.mulf (V m c main_v0 (((cfg0.win 0).blk t).view.emb j)) (FloatOps.ofBits .f32 0xBDCCCCCD#32)
    = FloatOps.mulf (V m c main_v0 (((cfg0.win 1).blk t).view.emb j)) (FloatOps.ofBits .f32 0xBDCCCCCD#32)
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 1024 + 1 * (j 1).val = win0_1.index t (1 : Fin 2) * 1024 + 1 * (j 1).val; omega
  rw [h0]

/-- An index of the output array lies in point t's block iff each coordinate lies in the block's range. -/
theorem mem_block (t : Fin cfg0.N) (i : S65536x1024.Idx) :
    i ∈ ((cfg0.win 1).blk t).view.set ↔ ∀ a : Fin 2, win0_1.index t a * S512x1024.size a ≤ (i a).val ∧ (i a).val < win0_1.index t a * S512x1024.size a + S512x1024.size a := by
  show i ∈ ((View.whole main_v1).slice (win0_1.rect t)).set ↔ _
  rw [View.set_slice_whole, Rect.mem_set_unit]
  exact Iff.rfl

/-- The blocks tile the array: row r is in the block of the point at block row r / 512. -/
theorem covered (i : S65536x1024.Idx) :
    ∃ t : Fin cfg0.N, (cfg0.win 1).flush t = true ∧ i ∈ ((cfg0.win 1).blk t).view.set := by
  have hi0 : (i 0).val < 65536 := (i 0).isLt
  have hi1 : (i 1).val < 1024 := (i 1).isLt
  obtain ⟨t, ht⟩ := block_row_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 1024 ≤ (i 1).val ∧ (i 1).val < win0_1.index t (1 : Fin 2) * 1024 + 1024; omega

/-- The output array after the region: every entry of the flattened input times the scalar. -/
theorem final (c : Dev nD) : (dats m 0 c).arrAt 1 cfg0.N = rowsScaled (V m c main_v0) :=
  (dats m 0 c).arrAt_eq_of_cover 1 (rowsScaled (V m c main_v0)) (fun t _ => flushed_eq m c t) covered

end Cert.KernelIdeal.ScaleRegion

end
-- ==== Proof.ScaleSpec.lean ====
/-
  The mathematics shared by both programs, with no program imported.

  The kernel flattens x : [16, 4096, 1024] to [65536, 1024] in row-major order, multiplies every entry by one
  scalar on the right, and restores the shape; the reference multiplies every entry of x by the same scalar on the
  left. Two facts join them:
  * a shape cast only renames indices (it composes the array with a bijection of index sets), so a pointwise map
    between a cast and the cast back is that pointwise map on the original array;
  * on the extended reals multiplication is commutative, at the infinities too, so no finiteness is used.
-/
import Idealize.ShloMosaic.PureOps.Ideal
import Idealize.ShloMosaic.Lib.ValueIdx
import Idealize.ShloMosaic.Lib.Pipeline.Value

noncomputable section

namespace Cert.Scale

open Idealize.ShloMosaic

/-- A pointwise map applied between a shape cast and the cast back is the pointwise map on the original array:
    the two casts compose to the identity renaming of indices. -/
theorem shapeCast_map_shapeCast {s t : Shape} {α β : Type} (f : α → β) (x : s.Idx → α)
    (h : s.ShapeCasts t) (h' : t.ShapeCasts s) :
    shapeCast s (fun j => f (shapeCast t x h j)) h' = fun i => f (x i) := by
  funext i
  show f (x (Shape.reshapeEquiv h (Shape.reshapeEquiv h' i))) = f (x i)
  rw [Shape.reshapeEquiv_reshapeEquiv, Shape.reshapeEquiv_self]

/-- The scaled array: every entry times the scalar whose single-precision word is `w`, read as an extended real. -/
def scaled (s : Shape) (w : BitVec 32) (x : s.Idx → EReal) : s.Idx → EReal :=
  fun i => Ideal.ofBits .f32 w * x i

/-- The scalar on the right of each entry is the scalar on the left: multiplication of extended reals commutes. -/
theorem mul_right_eq_scaled (s : Shape) (w : BitVec 32) (x : s.Idx → EReal) :
    (fun i => x i * Ideal.ofBits .f32 w) = scaled s w x := by
  funext i
  exact mul_comm _ _

end Cert.Scale

end
-- ==== Proof.ScaleRun.lean ====
/-
  The idealized kernel's run, read as a value.

  @main flattens x to 65536 rows before the pallas_call and restores the shape [16, 4096, 1024] after it. The
  flattened input is a shape cast of x; the output array after the region is every flattened entry times the
  scalar (the region's module); the result is the cast back of that array. A pointwise map between a cast and the
  cast back is the pointwise map on x, and the scalar moves from the right to the left because multiplication of
  extended reals commutes: the result is the scaled array.
-/
import proofs.«101614_j61933428412507_1_alg».proof.Proof.Gen.KernelIdeal.Frame
import proofs.«101614_j61933428412507_1_alg».proof.Proof.ScaleRegion
import proofs.«101614_j61933428412507_1_alg».proof.Proof.ScaleSpec
import Idealize.ShloMosaic.Lib.StableHlo.Run

noncomputable section

namespace Cert.KernelIdeal.ScaleRun

open Idealize.ShloMosaic Idealize.ShloMosaic.TcCoe Idealize.SL.Sem Idealize.ShloMosaic.StableHlo
open Cert.KernelIdeal Cert.KernelIdeal.Gen

section AnyInstance

variable {F : FTy → Type} [FloatOps F]
variable (m : (ℓ : Loc nD τ sig) → Buf (Elt F) ℓ)

/-- The array the region reads is x's entries in row-major order at the shape [65536, 1024]. -/
theorem flat_eq (c : Dev nD) :
    (V m c main_v0 : S65536x1024.Idx → Elt F .f32)
      = shapeCast S65536x1024 (m ((c : Thread nD τ).loc main_arg0)) Facts₀.shapeCasts_S16x4096x1024_S65536x1024 := by
  show StableHlo.after hostOps0 (fun b => m (c, b)) (Proc.devRef .tc main_v0) = _
  after_results
  rfl

/-- The result is the region's output array, as the region left it, in row-major order at the shape
    [16, 4096, 1024]. -/
theorem tail_eq (c : Dev nD) :
    (Pipeline.afterTail₀ cfgs (dats m) 0 (V0 m) [hostOps1] c main_v2 : S16x4096x1024.Idx → Elt F .f32)
      = shapeCast S16x4096x1024 ((dats m 0 c).arrAt 1 cfg0.N) Facts₀.shapeCasts_S65536x1024_S16x4096x1024 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 1 cfg0.N :=
    Pipeline.withArrays_arr spec0 launch0.win.arr_inj c (V0 m c) (fun w => (dats m 0 c).arrAt w cfg0.N) 1
  rw [e]
  rfl

end AnyInstance

section OnTheExtendedReals

variable (m : (ℓ : Loc nD τ sig) → Buf (Elt Ideal) ℓ) (ρ : Dev nD → PrngReg)

/-- The result of @main on the extended reals: entry i is the scalar times x i. -/
theorem value (c : Dev nD) :
    (Pipeline.afterTail₀ cfgs (dats m) 0 (V0 m) [hostOps1] c main_v2 : S16x4096x1024.Idx → EReal)
      = Cert.Scale.scaled S16x4096x1024 0xBDCCCCCD#32 (m ((c : Thread nD τ).loc main_arg0)) := by
  refine (tail_eq m c).trans ?_
  rw [ScaleRegion.final m c, flat_eq m c]
  exact (Cert.Scale.shapeCast_map_shapeCast (fun v : EReal => v * Ideal.ofBits .f32 0xBDCCCCCD#32)
      (m ((c : Thread nD τ).loc main_arg0)) _ _).trans (Cert.Scale.mul_right_eq_scaled _ _ _)

/-- Every weakly fair execution of the idealized kernel terminates with the result at the scaled array and x
    unchanged. -/
theorem run : θ_run defs (onTc (τ := τ) (main (F := Ideal))) ⟨m, fun _ => 0, ρ⟩ fun r => ∀ c : Dev nD,
      r.2.mem ((c.tc : Thread nD τ).loc main_v2)
        = Cert.Scale.scaled S16x4096x1024 0xBDCCCCCD#32 (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (value m c),
       ((h c).2 main_arg0 (Pipeline.mem_restRefs_of main_arg0 (by decide) (by decide))).trans (W_main_arg0 m (dats m) c)⟩)
    (run_main m ρ)

end OnTheExtendedReals

end Cert.KernelIdeal.ScaleRun

end
-- ==== Proof.ScaleRef.lean ====
/-
  The reference's result as the scaled array.

  The reference builds the scalar as a rank-0 constant, broadcasts it to x's shape and multiplies it, on the left,
  into every entry of x. Read at an index: the broadcast of a rank-0 array is its one entry, so entry i of the
  result is the scalar times x i.
-/
import proofs.«101614_j61933428412507_1_alg».proof.Proof.Gen.ReferenceIdeal.Read
import proofs.«101614_j61933428412507_1_alg».proof.Proof.ScaleSpec

noncomputable section

namespace Cert.ReferenceIdeal.ScaleRef

open Idealize.ShloMosaic Cert.ReferenceIdeal Cert.ReferenceIdeal.Gen Cert.ReferenceIdeal.Read

/-- The reference's composed term, on the extended reals, is the scaled array. -/
theorem result_eq (x : (⟨S16x4096x1024, .f32⟩ : BufTy).Contents (Elt Ideal)) :
    mulf (broadcastInDim S16x4096x1024 ![] bcast_S_S16x4096x1024 (constant (F := Ideal) S_ .f32 0xBDCCCCCD#32)) x
      = Cert.Scale.scaled S16x4096x1024 0xBDCCCCCD#32 x := by
  rw [val_main_v1_eq]
  funext i
  rw [val_main_v1_apply, val_main_v0_apply, val_main_cst_apply]
  rfl

end Cert.ReferenceIdeal.ScaleRef

end
-- ==== Proof.lean ====
/-
  y = -0.1 · x on x : f32[16, 4096, 1024], a Pallas kernel against jnp.

  The kernel flattens x to [65536, 1024], streams it through one pallas_call over a grid of 128 points — point t
  multiplies rows 512·t … 512·t + 511 by the single-precision scalar with word 0xBDCCCCCD, the scalar on the
  right — and restores the shape. The reference multiplies the broadcast scalar, the same word, into x from the
  left. Read on the extended reals both results are, entry by entry, that scalar's value times x i:
  * kernel: the 128 blocks are restrictions of one whole-array function and tile the rows (Proof/ScaleRegion.lean);
    the two reshapes around the call rename indices back and forth and cancel around a pointwise map, and the scalar
    changes sides by commutativity of multiplication (Proof/ScaleSpec.lean, Proof/ScaleRun.lean);
  * reference: a broadcast rank-0 constant read at an index is its one entry (Proof/ScaleRef.lean).
  Commutativity holds at the infinities as well, so the finiteness of x is never used. The two programs use the
  same word for the scalar, so its value is never computed. The ideal pass rewrote nothing, so the idealized
  kernel is the kernel's own text and there is nothing to preserve. The kernel's two frames are the generated
  ones; the reference's frame is its generated run with the result dropped.
-/
import proofs.«101614_j61933428412507_1_alg».proof.Defs
import proofs.«101614_j61933428412507_1_alg».proof.Proof.Gen.Kernel
import proofs.«101614_j61933428412507_1_alg».proof.Proof.Gen.Kernel.Frame
import proofs.«101614_j61933428412507_1_alg».proof.Proof.Gen.KernelIdeal
import proofs.«101614_j61933428412507_1_alg».proof.Proof.Gen.KernelIdeal.Frame
import proofs.«101614_j61933428412507_1_alg».proof.Proof.Gen.ReferenceIdeal
import proofs.«101614_j61933428412507_1_alg».proof.Proof.Gen.ReferenceIdeal.Run
import proofs.«101614_j61933428412507_1_alg».proof.Proof.Gen.Pre_finite_inputs
import proofs.«101614_j61933428412507_1_alg».proof.Proof.ScaleRun
import proofs.«101614_j61933428412507_1_alg».proof.Proof.ScaleRef
import Idealize.ShloMosaic.Adequacy
import Idealize.ShloMosaic.Init

noncomputable section

namespace Cert.Proof

open Idealize.ShloMosaic Idealize.SL.Sem

/-- The kernel as printed terminates, faults nowhere and leaves x as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on x, both programs end with the result at the scalar's value times x, entry by
    entry: the kernel by its run read as a value, the reference by its run and its term read at an index. -/
theorem algebraic : Cert.algebraic_KernelIdeal_ReferenceIdeal := by
  intro m ρ m' ρ' _ hagree
  refine ⟨_, Cert.KernelIdeal.ScaleRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.ScaleRef.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
